-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x640000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S640000x128 : Shape := ⟨2, ![640000, 128]⟩
abbrev S5000x128 : Shape := ⟨2, ![5000, 128]⟩
abbrev S1x128 : Shape := ⟨2, ![1, 128]⟩

abbrev nBuf : Space → Nat
  | .hbm => 57
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S50000, .f32⟩
  | .hbm, ⟨16, _⟩ => ⟨S640000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .f32⟩
  | .hbm, ⟨34, _⟩ => ⟨S_, .f32⟩
  | .hbm, ⟨35, _⟩ => ⟨S50000x128, .f32⟩
  | .hbm, ⟨36, _⟩ => ⟨S640000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .f32⟩
  | .hbm, ⟨50, _⟩ => ⟨S_, .f32⟩
  | .hbm, ⟨51, _⟩ => ⟨S50000x128, .f32⟩
  | .hbm, ⟨52, _⟩ => ⟨S640000x1, .i32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S50000x128, .f32⟩
  | .hbm, ⟨23, _⟩ => ⟨S640000x1, .i32⟩
  | .hbm, ⟨24, _⟩ => ⟨S50000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S50000, .f32⟩
  | .hbm, ⟨29, _⟩ => ⟨S640000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x128, .f32⟩
  | .hbm, ⟨57, _⟩ => ⟨S_, .f32⟩
  | .hbm, ⟨58, _⟩ => ⟨S50000x128, .f32⟩
  | .hbm, ⟨59, _⟩ => ⟨S640000x1, .i32⟩
  | .hbm, ⟨60, _⟩ => ⟨S50000x128, .f32⟩
  | .hbm, ⟨61, _⟩ => ⟨S_, .f32⟩
  | .hbm, ⟨62, _⟩ => ⟨S640000, .f32⟩
  | .hbm, ⟨63, _⟩ => ⟨S_, .f32⟩
  | .hbm, ⟨64, _⟩ => ⟨S50000, .f32⟩
  | .hbm, ⟨65, _⟩ => ⟨S640000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S128x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S128x128, .f32⟩
  | .hbm, ⟨79, _⟩ => ⟨S50000x128, .f32⟩
  | .hbm, ⟨80, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The dense step of one graph-convolution layer over the extended reals, as ONE function of whole arrays, index by
  index, for a table of any number of rows: row r, feature j of the result is

      ( Σₖ mean(r,k) · Wl(j,k)  +  b(j) )  +  Σₖ x(r,k) · Wr(j,k),

  the two weight matrices read transposed (feature j takes ROW j of each), and the same followed by a maximum with zero.
  A row's result reads only that row of `mean` and of `x`: a block of rows of the result is the function of the same
  block of rows of the two tables. Also the one law that joins a product with a reciprocal to a quotient here: the
  divisor is a maximum with one, hence never zero, and off zero the quotient IS the product with the inverse, at
  every extended real (the infinities included), so nothing has to be known about the numerator or the count.
-/
import Idealize.ShloMosaic.Lib.ValueIdx
import Idealize.ShloMosaic.PureOps.Ideal

noncomputable section

namespace Cert.Sage

open Idealize.ShloMosaic Idealize.ShloMosaic.ValueIdx

/-- Row r, feature j: the neighbour mean against row j of `Wl`, plus the bias at j, plus the node's own row against
    row j of `Wr`. -/
def dense {n : ℕ} (mean x : FVec Ideal ⟨2, ![n, 128]⟩ .f32) (Wl : FVec Ideal ⟨2, ![128, 128]⟩ .f32)
    (b : FVec Ideal ⟨1, ![128]⟩ .f32) (Wr : FVec Ideal ⟨2, ![128, 128]⟩ .f32) : FVec Ideal ⟨2, ![n, 128]⟩ .f32 :=
  fun i => ((∑ k : Fin 128, mean (ix2 (i 0) k) * Wl (ix2 (i 1) k)) + b (ix1 (i 1)))
    + ∑ k : Fin 128, x (ix2 (i 0) k) * Wr (ix2 (i 1) k)

theorem dense_apply {n : ℕ} (mean x : FVec Ideal ⟨2, ![n, 128]⟩ .f32) (Wl : FVec Ideal ⟨2, ![128, 128]⟩ .f32)
    (b : FVec Ideal ⟨1, ![128]⟩ .f32) (Wr : FVec Ideal ⟨2, ![128, 128]⟩ .f32) (r : Fin n) (j : Fin 128) :
    dense mean x Wl b Wr (ix2 r j)
      = ((∑ k : Fin 128, mean (ix2 r k) * Wl (ix2 j k)) + b (ix1 j)) + ∑ k : Fin 128, x (ix2 r k) * Wr (ix2 j k) := rfl

/-- The dense step followed by the maximum with zero. -/
def denseRelu {n : ℕ} (mean x : FVec Ideal ⟨2, ![n, 128]⟩ .f32) (Wl : FVec Ideal ⟨2, ![128, 128]⟩ .f32)
    (b : FVec Ideal ⟨1, ![128]⟩ .f32) (Wr : FVec Ideal ⟨2, ![128, 128]⟩ .f32) : FVec Ideal ⟨2, ![n, 128]⟩ .f32 :=
  fun i => max (dense mean x Wl b Wr i) 0

theorem denseRelu_apply {n : ℕ} (mean x : FVec Ideal ⟨2, ![n, 128]⟩ .f32) (Wl : FVec Ideal ⟨2, ![128, 128]⟩ .f32)
    (b : FVec Ideal ⟨1, ![128]⟩ .f32) (Wr : FVec Ideal ⟨2, ![128, 128]⟩ .f32) (r : Fin n) (j : Fin 128) :
    denseRelu mean x Wl b Wr (ix2 r j) = max (dense mean x Wl b Wr (ix2 r j)) 0 := rfl

/-- A row of the dense step depends on the tables only through that row: if two pairs of tables agree on row `r`
    and row `r'` respectively, the results agree there. -/
theorem dense_row {n n' : ℕ} (mean x : FVec Ideal ⟨2, ![n, 128]⟩ .f32) (mean' x' : FVec Ideal ⟨2, ![n', 128]⟩ .f32)
    (Wl : FVec Ideal ⟨2, ![128, 128]⟩ .f32) (b : FVec Ideal ⟨1, ![128]⟩ .f32) (Wr : FVec Ideal ⟨2, ![128, 128]⟩ .f32)
    (r : Fin n) (r' : Fin n') (hm : ∀ k : Fin 128, mean (ix2 r k) = mean' (ix2 r' k))
    (hx : ∀ k : Fin 128, x (ix2 r k) = x' (ix2 r' k)) (j : Fin 128) :
    dense mean x Wl b Wr (ix2 r j) = dense mean' x' Wl b Wr (ix2 r' j) := by
  rw [dense_apply, dense_apply]
  simp only [hm, hx]

/-- A maximum with one is not zero. -/
theorem max_one_ne_zero (c : EReal) : max c 1 ≠ 0 :=
  (lt_of_lt_of_le zero_lt_one (le_max_right c 1)).ne'

/-- Scaling by the reciprocal of a maximum with one is dividing by it, at every extended real. -/
theorem mul_recip_eq_div (a c : EReal) : a * Ideal.div 1 (max c 1) = Ideal.div a (max c 1) := by
  unfold Ideal.div
  rw [if_neg (max_one_ne_zero c), if_neg (max_one_ne_zero c), one_mul]

end Cert.Sage

end
-- ==== Proof.RegionValue.lean ====
/-
  What each of the two kernel regions leaves in its result array, as ONE function of the arrays the region finds at
  its entry: grid point t works on rows 5000·t … 5000·t + 4999 of the two tables (all 128 columns) with the two
  weight matrices and the bias whole, and writes back the same rows of the result; a row of the dense step reads only
  that row of the tables, so each block written back is the block of the whole-array dense step, and the ten blocks
  cover the 50000 rows.
-/
import proofs.«163515_j67456756351010_1_alg».proof.Proof.Gen.KernelIdeal.Frame
import proofs.«163515_j67456756351010_1_alg».proof.Proof.Spec
import Idealize.ShloMosaic.Lib.Pipeline.Value
import Idealize.ShloMosaic.Lib.ValueIdx

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## Region 0 -/

/-- The printed index maps over the grid: the three row-blocked windows are at block (t, 0), the weights and the bias
    at their one block. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem N0 : cfg0.N = 10 := by decide

/-- The neighbour-mean table's block at point t is its rows 5000·t + p. -/
theorem blk0_0 (c : Dev nD) (t : Fin cfg0.N) (p : Fin 5000) (k : Fin 128) (r : Fin 50000) (hr : r.val = 5000 * t.val + p.val) :
    (iblk0 V c 0 t : Vec Ideal S5000x128 .f32) (ix2 p k) = (V c main_v24 : S50000x128.Idx → EReal) (ix2 r k) := by
  obtain ⟨e0, e1, -⟩ := idx0 t
  unfold iblk0
  rw [View.read_apply]
  show V c main_v24 _ = V c main_v24 _
  congr 1
  funext a
  apply Fin.ext
  match a with
  | ⟨0, _⟩ => show win0_0.index t 0 * 5000 + 1 * p.val = r.val; rw [e0, hr]; omega
  | ⟨1, _⟩ => show win0_0.index t 1 * 128 + 1 * k.val = k.val; rw [e1]; omega

/-- The node table's block at point t is its rows 5000·t + p. -/
theorem blk0_1 (c : Dev nD) (t : Fin cfg0.N) (p : Fin 5000) (k : Fin 128) (r : Fin 50000) (hr : r.val = 5000 * t.val + p.val) :
    (iblk0 V c 1 t : Vec Ideal S5000x128 .f32) (ix2 p k) = (V c main_arg0 : S50000x128.Idx → EReal) (ix2 r k) := by
  obtain ⟨-, -, e0, e1, -⟩ := idx0 t
  unfold iblk0
  rw [View.read_apply]
  show V c main_arg0 _ = V c main_arg0 _
  congr 1
  funext a
  apply Fin.ext
  match a with
  | ⟨0, _⟩ => show win0_1.index t 0 * 5000 + 1 * p.val = r.val; rw [e0, hr]; omega
  | ⟨1, _⟩ => show win0_1.index t 1 * 128 + 1 * k.val = k.val; rw [e1]; omega

/-- The left weight's one block is the whole matrix. -/
theorem blk0_2 (c : Dev nD) (t : Fin cfg0.N) :
    (iblk0 V c 2 t : Vec Ideal S128x128 .f32) = (V c main_arg2 : S128x128.Idx → EReal) := by
  obtain ⟨-, -, -, -, e0, e1, -⟩ := idx0 t
  funext y
  unfold iblk0
  rw [View.read_apply]
  show V c main_arg2 _ = V c main_arg2 _
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- The bias's one block is the whole vector. -/
theorem blk0_3 (c : Dev nD) (t : Fin cfg0.N) :
    (iblk0 V c 3 t : Vec Ideal S128 .f32) = (V c main_arg3 : S128.Idx → EReal) := by
  obtain ⟨-, -, -, -, -, -, e0, -⟩ := idx0 t
  funext y
  unfold iblk0
  rw [View.read_apply]
  show V c main_arg3 _ = V c main_arg3 _
  congr 1
  funext a
  apply Fin.ext
  match a with
  | ⟨0, _⟩ => show win0_3.index t 0 * 128 + 1 * (y 0).val = (y 0).val; rw [e0]; omega

/-- The right weight's one block is the whole matrix. -/
theorem blk0_4 (c : Dev nD) (t : Fin cfg0.N) :
    (iblk0 V c 4 t : Vec Ideal S128x128 .f32) = (V c main_arg4 : S128x128.Idx → EReal) := by
  obtain ⟨-, -, -, -, -, -, -, e0, e1, -⟩ := idx0 t
  funext y
  unfold iblk0
  rw [View.read_apply]
  show V c main_arg4 _ = V c main_arg4 _
  congr 1
  funext a
  apply Fin.ext
  match a with
  | ⟨0, _⟩ => show win0_4.index t 0 * 128 + 1 * (y 0).val = (y 0).val; rw [e0]; omega
  | ⟨1, _⟩ => show win0_4.index t 1 * 128 + 1 * (y 1).val = (y 1).val; rw [e1]; omega

/-- What the first region's result array ends holding: the dense step with the maximum, of the arrays as the region
    finds them. -/
abbrev G0 (c : Dev nD) : S50000x128.Idx → EReal :=
  Cert.Sage.denseRelu (V c main_v24) (V c main_arg0) (V c main_arg2) (V c main_arg3) (V c main_arg4)

/-- What point t writes back is block t of that array. -/
theorem flushed0
    (hpay : ∀ (v0 v3 : Vec Ideal S5000x128 .f32) (v5 v7 : Vec Ideal S128x128 .f32) (v11 : Vec Ideal S128 .f32),
      k0_pay1 (F := Ideal) v0 v3 v5 v7 v11 = Cert.Sage.denseRelu v0 v3 v5 v11 v7)
    (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  rw [hpay, blk0_2, blk0_3, blk0_4]
  obtain ⟨-, -, -, -, -, -, -, -, -, e0, e1⟩ := idx0 t
  funext j
  obtain ⟨p, q, rfl⟩ : ∃ (p : Fin 5000) (q : Fin 128), j = ix2 p q := ⟨j 0, j 1, eq_ix2 j⟩
  have ht : t.val < 10 := Nat.lt_of_lt_of_eq t.isLt N0
  have hr : 5000 * t.val + p.val < 50000 := by have := p.isLt; omega
  show Cert.Sage.denseRelu _ _ _ _ _ (ix2 p q) = G0 V c (((cfg0.win 5).blk t).view.emb (ix2 p q))
  have hemb : ((cfg0.win 5).blk t).view.emb (ix2 p q) = ix2 (⟨5000 * t.val + p.val, hr⟩ : Fin 50000) q := by
    funext a
    apply Fin.ext
    match a with
    | ⟨0, _⟩ => show win0_5.index t 0 * 5000 + 1 * p.val = 5000 * t.val + p.val; rw [e0]; omega
    | ⟨1, _⟩ => show win0_5.index t 1 * 128 + 1 * q.val = q.val; rw [e1]; omega
  rw [hemb]
  unfold G0
  rw [Cert.Sage.denseRelu_apply, Cert.Sage.denseRelu_apply]
  congr 1
  exact Cert.Sage.dense_row _ _ _ _ _ _ _ p ⟨_, hr⟩ (fun k => blk0_0 V c t p k _ rfl) (fun k => blk0_1 V c t p k _ rfl) q

/-- Every row of the result is in some point's block: row r is in block r / 5000. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 5000, by rw [N0]; omega⟩
  obtain ⟨-, -, -, -, -, -, -, -, -, e0, e1⟩ := idx0 t
  have htv : t.val = (i 0).val / 5000 := rfl
  refine ⟨t, flush0_5 t, ?_⟩
  show i ∈ ((View.whole main_v25).slice (win0_5.rect t)).set
  rw [View.set_slice_whole, Rect.mem_set_unit]
  intro a
  match a with
  | ⟨0, _⟩ => show win0_5.index t (0 : Fin 2) * 5000 ≤ (i 0).val ∧ (i 0).val < win0_5.index t (0 : Fin 2) * 5000 + 5000; rw [e0, htv]; omega
  | ⟨1, _⟩ => show win0_5.index t (1 : Fin 2) * 128 ≤ (i 1).val ∧ (i 1).val < win0_5.index t (1 : Fin 2) * 128 + 128; rw [e1]; omega

/-- The first region's result array after the region. -/
theorem array0
    (hpay : ∀ (v0 v3 : Vec Ideal S5000x128 .f32) (v5 v7 : Vec Ideal S128x128 .f32) (v11 : Vec Ideal S128 .f32),
      k0_pay1 (F := Ideal) v0 v3 v5 v7 v11 = Cert.Sage.denseRelu v0 v3 v5 v11 v7)
    (c : Dev nD) : (dat0 V c).arrAt 5 cfg0.N = G0 V c :=
  (dat0 V c).arrAt_eq_of_cover 5 (G0 V c) (fun t _ => flushed0 V hpay c t) cover0

/-! ## Region 1 -/

/-- The printed index maps over the grid: the three row-blocked windows are at block (t, 0), the weights and the bias
    at their one block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem N1 : cfg1.N = 10 := by decide

/-- The second neighbour-mean table's block at point t is its rows 5000·t + p. -/
theorem blk1_0 (c : Dev nD) (t : Fin cfg1.N) (p : Fin 5000) (k : Fin 128) (r : Fin 50000) (hr : r.val = 5000 * t.val + p.val) :
    (iblk1 V c 0 t : Vec Ideal S5000x128 .f32) (ix2 p k) = (V c main_v37 : S50000x128.Idx → EReal) (ix2 r k) := by
  obtain ⟨e0, e1, -⟩ := idx1 t
  unfold iblk1
  rw [View.read_apply]
  show V c main_v37 _ = V c main_v37 _
  congr 1
  funext a
  apply Fin.ext
  match a with
  | ⟨0, _⟩ => show win1_0.index t 0 * 5000 + 1 * p.val = r.val; rw [e0, hr]; omega
  | ⟨1, _⟩ => show win1_0.index t 1 * 128 + 1 * k.val = k.val; rw [e1]; omega

/-- The hidden table's block at point t is its rows 5000·t + p. -/
theorem blk1_1 (c : Dev nD) (t : Fin cfg1.N) (p : Fin 5000) (k : Fin 128) (r : Fin 50000) (hr : r.val = 5000 * t.val + p.val) :
    (iblk1 V c 1 t : Vec Ideal S5000x128 .f32) (ix2 p k) = (V c main_v25 : S50000x128.Idx → EReal) (ix2 r k) := by
  obtain ⟨-, -, e0, e1, -⟩ := idx1 t
  unfold iblk1
  rw [View.read_apply]
  show V c main_v25 _ = V c main_v25 _
  congr 1
  funext a
  apply Fin.ext
  match a with
  | ⟨0, _⟩ => show win1_1.index t 0 * 5000 + 1 * p.val = r.val; rw [e0, hr]; omega
  | ⟨1, _⟩ => show win1_1.index t 1 * 128 + 1 * k.val = k.val; rw [e1]; omega

/-- The left weight's one block is the whole matrix. -/
theorem blk1_2 (c : Dev nD) (t : Fin cfg1.N) :
    (iblk1 V c 2 t : Vec Ideal S128x128 .f32) = (V c main_arg5 : S128x128.Idx → EReal) := by
  obtain ⟨-, -, -, -, e0, e1, -⟩ := idx1 t
  funext y
  unfold iblk1
  rw [View.read_apply]
  show V c main_arg5 _ = V c main_arg5 _
  congr 1
  funext a
  apply Fin.ext
  match a with
  | ⟨0, _⟩ => show win1_2.index t 0 * 128 + 1 * (y 0).val = (y 0).val; rw [e0]; omega
  | ⟨1, _⟩ => show win1_2.index t 1 * 128 + 1 * (y 1).val = (y 1).val; rw [e1]; omega

/-- The bias's one block is the whole vector. -/
theorem blk1_3 (c : Dev nD) (t : Fin cfg1.N) :
    (iblk1 V c 3 t : Vec Ideal S128 .f32) = (V c main_arg6 : S128.Idx → EReal) := by
  obtain ⟨-, -, -, -, -, -, e0, -⟩ := idx1 t
  funext y
  unfold iblk1
  rw [View.read_apply]
  show V c main_arg6 _ = V c main_arg6 _
  congr 1
  funext a
  apply Fin.ext
  match a with
  | ⟨0, _⟩ => show win1_3.index t 0 * 128 + 1 * (y 0).val = (y 0).val; rw [e0]; omega

/-- The right weight's one block is the whole matrix. -/
theorem blk1_4 (c : Dev nD) (t : Fin cfg1.N) :
    (iblk1 V c 4 t : Vec Ideal S128x128 .f32) = (V c main_arg7 : S128x128.Idx → EReal) := by
  obtain ⟨-, -, -, -, -, -, -, e0, e1, -⟩ := idx1 t
  funext y
  unfold iblk1
  rw [View.read_apply]
  show V c main_arg7 _ = V c main_arg7 _
  congr 1
  funext a
  apply Fin.ext
  match a with
  | ⟨0, _⟩ => show win1_4.index t 0 * 128 + 1 * (y 0).val = (y 0).val; rw [e0]; omega
  | ⟨1, _⟩ => show win1_4.index t 1 * 128 + 1 * (y 1).val = (y 1).val; rw [e1]; omega

/-- What the second region's result array ends holding: the dense step of the arrays as the region finds them. -/
abbrev G1 (c : Dev nD) : S50000x128.Idx → EReal :=
  Cert.Sage.dense (V c main_v37) (V c main_v25) (V c main_arg5) (V c main_arg6) (V c main_arg7)

/-- What point t writes back is block t of that array. -/
theorem flushed1
    (hpay : ∀ (v0 v3 : Vec Ideal S5000x128 .f32) (v6 v8 : Vec Ideal S128x128 .f32) (v12 : Vec Ideal S128 .f32),
      k1_pay1 (F := Ideal) v0 v3 v6 v8 v12 = Cert.Sage.dense v0 v3 v6 v12 v8)
    (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  rw [hpay, blk1_2, blk1_3, blk1_4]
  obtain ⟨-, -, -, -, -, -, -, -, -, e0, e1⟩ := idx1 t
  funext j
  obtain ⟨p, q, rfl⟩ : ∃ (p : Fin 5000) (q : Fin 128), j = ix2 p q := ⟨j 0, j 1, eq_ix2 j⟩
  have ht : t.val < 10 := Nat.lt_of_lt_of_eq t.isLt N1
  have hr : 5000 * t.val + p.val < 50000 := by have := p.isLt; omega
  show Cert.Sage.dense _ _ _ _ _ (ix2 p q) = G1 V c (((cfg1.win 5).blk t).view.emb (ix2 p q))
  have hemb : ((cfg1.win 5).blk t).view.emb (ix2 p q) = ix2 (⟨5000 * t.val + p.val, hr⟩ : Fin 50000) q := by
    funext a
    apply Fin.ext
    match a with
    | ⟨0, _⟩ => show win1_5.index t 0 * 5000 + 1 * p.val = 5000 * t.val + p.val; rw [e0]; omega
    | ⟨1, _⟩ => show win1_5.index t 1 * 128 + 1 * q.val = q.val; rw [e1]; omega
  rw [hemb]
  unfold G1
  exact Cert.Sage.dense_row _ _ _ _ _ _ _ p ⟨_, hr⟩ (fun k => blk1_0 V c t p k _ rfl) (fun k => blk1_1 V c t p k _ rfl) q

/-- Every row of the result is in some point's block: row r is in block r / 5000. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 5000, by rw [N1]; omega⟩
  obtain ⟨-, -, -, -, -, -, -, -, -, e0, e1⟩ := idx1 t
  have htv : t.val = (i 0).val / 5000 := rfl
  refine ⟨t, flush1_5 t, ?_⟩
  show i ∈ ((View.whole main_v38).slice (win1_5.rect t)).set
  rw [View.set_slice_whole, Rect.mem_set_unit]
  intro a
  match a with
  | ⟨0, _⟩ => show win1_5.index t (0 : Fin 2) * 5000 ≤ (i 0).val ∧ (i 0).val < win1_5.index t (0 : Fin 2) * 5000 + 5000; rw [e0, htv]; omega
  | ⟨1, _⟩ => show win1_5.index t (1 : Fin 2) * 128 ≤ (i 1).val ∧ (i 1).val < win1_5.index t (1 : Fin 2) * 128 + 128; rw [e1]; omega

/-- The second region's result array after the region. -/
theorem array1
    (hpay : ∀ (v0 v3 : Vec Ideal S5000x128 .f32) (v6 v8 : Vec Ideal S128x128 .f32) (v12 : Vec Ideal S128 .f32),
      k1_pay1 (F := Ideal) v0 v3 v6 v8 v12 = Cert.Sage.dense v0 v3 v6 v12 v8)
    (c : Dev nD) : (dat1 V c).arrAt 5 cfg1.N = G1 V c :=
  (dat1 V c).arrAt_eq_of_cover 5 (G1 V c) (fun t _ => flushed1 V hpay c t) cover1

end Cert.KernelIdeal.RegionValue

end
-- ==== Proof.HostValue.lean ====
/-
  The host operations around the two kernel regions, read back: which arrays each region finds at its entry. Before the
  first region the host computes, from the edge array, the source and target rows, the neighbour counts and their
  reciprocals, and the first neighbour mean (a gather of the node table's rows at the sources, summed into the targets,
  scaled by the reciprocal count); between the regions it does the same gather-and-sum on the first region's result.
  The gather and the two sums stay whole operations here: both sides of the claim apply the same ones.
-/
import proofs.«163515_j67456756351010_1_alg».proof.Proof.Gen.KernelIdeal.Frame
import Idealize.ShloMosaic.Lib.StableHlo.Run
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

/-- Row 0 of the edge array: each edge's source node. -/
def srcRow (e : IVec S2x640000 32) : IVec S640000 32 :=
  shapeCast _ (extractStridedSlice S1x640000 ![0, 0] e slices_S2x640000_S1x640000_0_0) shapeCasts_S1x640000_S640000

/-- Row 1 of the edge array: each edge's target node. -/
def dstRow (e : IVec S2x640000 32) : IVec S640000 32 :=
  shapeCast _ (extractStridedSlice S1x640000 ![1, 0] e slices_S2x640000_S1x640000_1_0) shapeCasts_S1x640000_S640000

/-- The neighbour sum of a table: its rows gathered at the sources (a negative source counted from the end), added into
    the targets' rows of a zero table. -/
def aggOf (t : FVec Ideal S50000x128 .f32) (s d : IVec S640000 32) : FVec Ideal S50000x128 .f32 :=
  Host.scatterAdd (F := Ideal) scatter_S50000x128_S640000x1_S640000x128_1_0_0_1
    (broadcastInDim S50000x128 ![] bcast_S_S50000x128 (constant (F := Ideal) S_ .f32 0x00000000#32))
    (broadcastInDim S640000x1 ![0] bcast_S640000_S640000x1_0 d)
    (Host.gather gather_S50000x128_S640000x1_S640000x128_1_0_n_n_0_1_1128 t
      (broadcastInDim S640000x1 ![0] bcast_S640000_S640000x1_0
        (select (cmpi .slt s (broadcastInDim S640000 ![] bcast_S_S640000 (constantI S_ 32 0#32)))
          (addi s (broadcastInDim S640000 ![] bcast_S_S640000 (constantI S_ 32 50000#32))) s)))

/-- The neighbour count: ones added into the targets' entries of a zero vector. -/
def cntOf (d : IVec S640000 32) : FVec Ideal S50000 .f32 :=
  Host.scatterAdd (F := Ideal) scatter_S50000_S640000x1_S640000_n_0_0_1
    (broadcastInDim S50000 ![] bcast_S_S50000 (constant (F := Ideal) S_ .f32 0x00000000#32))
    (broadcastInDim S640000x1 ![0] bcast_S640000_S640000x1_0 d)
    (broadcastInDim S640000 ![] bcast_S_S640000 (constant (F := Ideal) S_ .f32 0x3F800000#32))

/-- One over the count or one, whichever is larger, as a column. -/
def invCol (d : IVec S640000 32) : FVec Ideal S50000x1 .f32 :=
  broadcastInDim S50000x1 ![0] bcast_S50000_S50000x1_0
    (Host.divf (F := Ideal) (broadcastInDim S50000 ![] bcast_S_S50000 (constant (F := Ideal) S_ .f32 0x3F800000#32))
      (maximumf (cntOf d) (broadcastInDim S50000 ![] bcast_S_S50000 (constant (F := Ideal) S_ .f32 0x3F800000#32))))

/-- The neighbour mean the kernel side forms: the neighbour sum times the reciprocal column, spread over the features. -/
def meanOf (t : FVec Ideal S50000x128 .f32) (s d : IVec S640000 32) (inv : FVec Ideal S50000x1 .f32) :
    FVec Ideal S50000x128 .f32 :=
  mulf (aggOf t s d) (broadcastInDim S50000x128 ![0, 1] bcast_S50000x1_S50000x128_0_1 inv)

variable (m : (ℓ : Loc nD τ sig) → Buf (Elt Ideal) ℓ) (ρ : Dev nD → PrngReg)

/-! ## Before the first region -/

theorem W1_v1 (c : Dev nD) : W1 m ρ c (Proc.devRef .tc main_v1) = srcRow (m ((c : Thread nD τ).loc main_arg1)) := by
  show StableHlo.after hostOps0 (W0 m ρ c) (Proc.devRef .tc main_v1) = _
  after_results
  rfl

theorem W1_v3 (c : Dev nD) : W1 m ρ c (Proc.devRef .tc main_v3) = dstRow (m ((c : Thread nD τ).loc main_arg1)) := by
  show StableHlo.after hostOps0 (W0 m ρ c) (Proc.devRef .tc main_v3) = _
  after_results
  rfl

theorem W1_v12 (c : Dev nD) : W1 m ρ c (Proc.devRef .tc main_v12) = invCol (dstRow (m ((c : Thread nD τ).loc main_arg1))) := by
  show StableHlo.after hostOps0 (W0 m ρ c) (Proc.devRef .tc main_v12) = _
  after_results
  rfl

set_option maxHeartbeats 4000000 in
theorem W1_v24 (c : Dev nD) : W1 m ρ c (Proc.devRef .tc main_v24)
    = meanOf (m ((c : Thread nD τ).loc main_arg0)) (srcRow (m ((c : Thread nD τ).loc main_arg1)))
        (dstRow (m ((c : Thread nD τ).loc main_arg1))) (invCol (dstRow (m ((c : Thread nD τ).loc main_arg1)))) := by
  show StableHlo.after hostOps0 (W0 m ρ c) (Proc.devRef .tc main_v24) = _
  after_results_simp
  rfl

/-- No operation before the first region writes an argument the region reads. -/
theorem W1_arg0 (c : Dev nD) : W1 m ρ c (Proc.devRef .tc main_arg0) = m ((c : Thread nD τ).loc main_arg0) := by
  show StableHlo.after hostOps0 _ (Proc.devRef .tc main_arg0) = _
  after_results_simp <;> rfl
theorem W1_arg2 (c : Dev nD) : W1 m ρ c (Proc.devRef .tc main_arg2) = m ((c : Thread nD τ).loc main_arg2) := by
  show StableHlo.after hostOps0 _ (Proc.devRef .tc main_arg2) = _
  after_results_simp <;> rfl
theorem W1_arg3 (c : Dev nD) : W1 m ρ c (Proc.devRef .tc main_arg3) = m ((c : Thread nD τ).loc main_arg3) := by
  show StableHlo.after hostOps0 _ (Proc.devRef .tc main_arg3) = _
  after_results_simp <;> rfl
theorem W1_arg4 (c : Dev nD) : W1 m ρ c (Proc.devRef .tc main_arg4) = m ((c : Thread nD τ).loc main_arg4) := by
  show StableHlo.after hostOps0 _ (Proc.devRef .tc main_arg4) = _
  after_results_simp <;> rfl

/-! ## Between the regions

The first region changes only its result array; every other array is as before it. -/

theorem W2_v1 (c : Dev nD) : W2 m ρ c (Proc.devRef .tc main_v1) = W1 m ρ c (Proc.devRef .tc main_v1) := W2_of_ne m ρ c main_v1 (by decide)
theorem W2_v3 (c : Dev nD) : W2 m ρ c (Proc.devRef .tc main_v3) = W1 m ρ c (Proc.devRef .tc main_v3) := W2_of_ne m ρ c main_v3 (by decide)
theorem W2_v12 (c : Dev nD) : W2 m ρ c (Proc.devRef .tc main_v12) = W1 m ρ c (Proc.devRef .tc main_v12) := W2_of_ne m ρ c main_v12 (by decide)
theorem W2_arg5 (c : Dev nD) : W2 m ρ c (Proc.devRef .tc main_arg5) = W1 m ρ c (Proc.devRef .tc main_arg5) := W2_of_ne m ρ c main_arg5 (by decide)
theorem W2_arg6 (c : Dev nD) : W2 m ρ c (Proc.devRef .tc main_arg6) = W1 m ρ c (Proc.devRef .tc main_arg6) := W2_of_ne m ρ c main_arg6 (by decide)
theorem W2_arg7 (c : Dev nD) : W2 m ρ c (Proc.devRef .tc main_arg7) = W1 m ρ c (Proc.devRef .tc main_arg7) := W2_of_ne m ρ c main_arg7 (by decide)

theorem W1_arg5 (c : Dev nD) : W1 m ρ c (Proc.devRef .tc main_arg5) = m ((c : Thread nD τ).loc main_arg5) := by
  show StableHlo.after hostOps0 _ (Proc.devRef .tc main_arg5) = _
  after_results_simp <;> rfl
theorem W1_arg6 (c : Dev nD) : W1 m ρ c (Proc.devRef .tc main_arg6) = m ((c : Thread nD τ).loc main_arg6) := by
  show StableHlo.after hostOps0 _ (Proc.devRef .tc main_arg6) = _
  after_results_simp <;> rfl
theorem W1_arg7 (c : Dev nD) : W1 m ρ c (Proc.devRef .tc main_arg7) = m ((c : Thread nD τ).loc main_arg7) := by
  show StableHlo.after hostOps0 _ (Proc.devRef .tc main_arg7) = _
  after_results_simp <;> rfl

set_option maxHeartbeats 4000000 in
/-- The second neighbour mean: the same gather-and-sum on the first region's result, with the source and target rows and
    the reciprocal column as they stand between the regions. -/
theorem W3_v37 (c : Dev nD) : W3 m ρ c (Proc.devRef .tc main_v37)
    = meanOf (W2 m ρ c (Proc.devRef .tc main_v25)) (W2 m ρ c (Proc.devRef .tc main_v1)) (W2 m ρ c (Proc.devRef .tc main_v3))
        (W2 m ρ c (Proc.devRef .tc main_v12)) := by
  show StableHlo.after hostOps1 _ (Proc.devRef .tc main_v37) = _
  after_results_simp <;> rfl

/-- No operation between the regions writes the first region's result or a weight the second region reads. -/
theorem W3_v25 (c : Dev nD) : W3 m ρ c (Proc.devRef .tc main_v25) = W2 m ρ c (Proc.devRef .tc main_v25) := by
  show StableHlo.after hostOps1 _ (Proc.devRef .tc main_v25) = _
  after_results_simp <;> rfl
theorem W3_arg5 (c : Dev nD) : W3 m ρ c (Proc.devRef .tc main_arg5) = W2 m ρ c (Proc.devRef .tc main_arg5) := by
  show StableHlo.after hostOps1 _ (Proc.devRef .tc main_arg5) = _
  after_results_simp <;> rfl
theorem W3_arg6 (c : Dev nD) : W3 m ρ c (Proc.devRef .tc main_arg6) = W2 m ρ c (Proc.devRef .tc main_arg6) := by
  show StableHlo.after hostOps1 _ (Proc.devRef .tc main_arg6) = _
  after_results_simp <;> rfl
theorem W3_arg7 (c : Dev nD) : W3 m ρ c (Proc.devRef .tc main_arg7) = W2 m ρ c (Proc.devRef .tc main_arg7) := by
  show StableHlo.after hostOps1 _ (Proc.devRef .tc main_arg7) = _
  after_results_simp <;> rfl

end Cert.KernelIdeal.HostValue

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.Tile.lean ====
/-
  What a row block's stored tile is, as mathematics. Each of the two layer bodies loads a block of 5000 rows of the
  neighbour means and of the node features, the two 128 × 128 weight matrices and the bias row, and stores one value:
  the first product (means against the first weights, read transposed) plus the bias spread over the rows, plus the
  second product (features against the second weights, read transposed); the first layer follows this with a maximum
  against zero. Over the extended reals the narrowing of the operands to the short format changes nothing, a reshape
  to the same shape changes nothing, and a product into a zero accumulator is the plain sum over the contracted
  coordinate. So the stored tile is the dense step of the loaded blocks, with and without the maximum.
-/
import proofs.«163515_j67456756351010_1_alg».proof.Proof.Gen.KernelIdeal.Skeleton
import proofs.«163515_j67456756351010_1_alg».proof.Proof.Spec
import proofs.«163515_j67456756351010_1_alg».proof.Proof.LibPlainProduct
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

namespace Cert.KernelIdeal.Tile

open Cert.KernelIdeal Cert.KernelIdeal.Gen Idealize.ShloMosaic Idealize.ShloMosaic.ValueIdx

/-- The product's shape record is the plain one: contract the left operand's columns against the right operand's
    rows. The two records carry the same lists and differ only in the proof that the lists fit the shapes. -/
theorem dot_plain : dot_S5000x128_S128x128_S5000x128_1_0_0_1_n_n = DotDims.plain 5000 128 128 := rfl

/-- One product of the body at row p, feature q: the block's row p against ROW q of the weight matrix. The narrowing
    of both operands is the identity, and the transposed weight read at (k, q) is the weight at (q, k). -/
theorem product_apply (a : Vec Ideal S5000x128 .f32) (w : Vec Ideal S128x128 .f32)
    (hb : FTy.bits .bf16 < FTy.bits .f32) (ht : S128x128.Transposes [1, 0] S128x128) (p : Fin 5000) (q : Fin 128) :
    matmul (F := Ideal) dot_S5000x128_S128x128_S5000x128_1_0_0_1_n_n none (truncf .bf16 a hb)
        (transpose S128x128 [1, 0] (truncf .bf16 w hb) ht) (constant (F := Ideal) S5000x128 .f32 0x00000000#32) (ix2 p q)
      = ∑ k : Fin 128, a (ix2 p k) * w (ix2 q k) := by
  rw [dot_plain]
  refine (Cert.PlainProduct.matmul_zero_apply (M := 5000) (K := 128) (N := 128) none _ _ p q).trans ?_
  refine Finset.sum_congr rfl fun k _ => ?_
  rw [transpose_ix2_apply, truncf_apply, truncf_apply]

/-- The bias row spread over the block, at row p, feature q: the bias at q. -/
theorem bias_apply (b : Vec Ideal S128 .f32) (hs : S128.ShapeCasts S1x128) (hbc : S1x128.Broadcasts S5000x128)
    (p : Fin 5000) (q : Fin 128) :
    broadcastTo S5000x128 (shapeCast S1x128 b hs) hbc (ix2 p q) = b (ix1 q) := by
  rw [broadcastTo_1b_ab_apply, shapeCast_a_1a_apply]

/-- The second layer's stored tile is the dense step of its loaded blocks. -/
theorem pay1_eq (v0 v3 : Vec Ideal S5000x128 .f32) (v6 v8 : Vec Ideal S128x128 .f32) (v12 : Vec Ideal S128 .f32) :
    k1_pay1 (F := Ideal) v0 v3 v6 v8 v12 = Cert.Sage.dense v0 v3 v6 v12 v8 := by
  funext j
  obtain ⟨p, q, rfl⟩ : ∃ (p : Fin 5000) (q : Fin 128), j = ix2 p q := ⟨j 0, j 1, eq_ix2 j⟩
  rw [Cert.Sage.dense_apply]
  unfold k1_pay1
  rw [shapeCast_self, shapeCast_self, addf_apply, addf_apply, product_apply, product_apply, bias_apply]

/-- The first layer's stored tile is the dense step of its loaded blocks followed by the maximum with zero. -/
theorem pay0_eq (v0 v3 : Vec Ideal S5000x128 .f32) (v5 v7 : Vec Ideal S128x128 .f32) (v11 : Vec Ideal S128 .f32) :
    k0_pay1 (F := Ideal) v0 v3 v5 v7 v11 = Cert.Sage.denseRelu v0 v3 v5 v11 v7 := by
  funext j
  obtain ⟨p, q, rfl⟩ : ∃ (p : Fin 5000) (q : Fin 128), j = ix2 p q := ⟨j 0, j 1, eq_ix2 j⟩
  rw [Cert.Sage.denseRelu_apply, Cert.Sage.dense_apply]
  unfold k0_pay1
  rw [shapeCast_self, maximumf_apply, broadcast_apply, addf_apply, addf_apply, product_apply, product_apply, bias_apply,
    Ideal.ofBits_def, Ideal.ofBits_zero_f32]

end Cert.KernelIdeal.Tile
-- ==== Proof.KernelValue.lean ====
/-
  The kernel side's result, read off its run: the second region's array is the dense step of the arrays it finds, which the
  host operations between the regions made from the first region's array (its neighbour sum scaled by the reciprocal
  counts), itself the dense step with the maximum of what the host operations before it made from the arguments.
-/
import proofs.«163515_j67456756351010_1_alg».proof.Proof.KernelRun
import proofs.«163515_j67456756351010_1_alg».proof.Proof.RegionValue
import proofs.«163515_j67456756351010_1_alg».proof.Proof.HostValue
import proofs.«163515_j67456756351010_1_alg».proof.Proof.Tile

set_option maxRecDepth 16384

noncomputable section

namespace Cert.KernelIdeal.Result

open Cert.KernelIdeal Cert.KernelIdeal.Gen Cert.KernelIdeal.HostValue
open Idealize.ShloMosaic Idealize.ShloMosaic.TcCoe Idealize.SL.Sem

/-- The neighbour mean of a table as the kernel side forms it from the edge array. -/
def meanK (t : FVec Ideal S50000x128 .f32) (e : IVec S2x640000 32) : FVec Ideal S50000x128 .f32 :=
  meanOf t (srcRow e) (dstRow e) (invCol (dstRow e))

/-- The hidden table: the first layer's dense step with the maximum, on the node table and its neighbour mean. -/
def hiddenK (x : FVec Ideal S50000x128 .f32) (e : IVec S2x640000 32) (W1l : FVec Ideal S128x128 .f32)
    (b1l : FVec Ideal S128 .f32) (W1r : FVec Ideal S128x128 .f32) : FVec Ideal S50000x128 .f32 :=
  Cert.Sage.denseRelu (meanK x e) x W1l b1l W1r

/-- The result: the second layer's dense step on the hidden table and its neighbour mean. -/
def resultK (x : FVec Ideal S50000x128 .f32) (e : IVec S2x640000 32) (W1l : FVec Ideal S128x128 .f32)
    (b1l : FVec Ideal S128 .f32) (W1r W2l : FVec Ideal S128x128 .f32) (b2l : FVec Ideal S128 .f32)
    (W2r : FVec Ideal S128x128 .f32) : FVec Ideal S50000x128 .f32 :=
  Cert.Sage.dense (meanK (hiddenK x e W1l b1l W1r) e) (hiddenK x e W1l b1l W1r) W2l b2l W2r

variable (m : (ℓ : Loc nD τ sig) → Buf (Elt Ideal) ℓ) (ρ : Dev nD → PrngReg)

/-- Between the regions the first region's result array holds the hidden table. -/
theorem hidden_eq (c : Dev nD) : W2 m ρ c (Proc.devRef .tc main_v25)
    = hiddenK (m ((c : Thread nD τ).loc main_arg0)) (m ((c : Thread nD τ).loc main_arg1))
        (m ((c : Thread nD τ).loc main_arg2)) (m ((c : Thread nD τ).loc main_arg3)) (m ((c : Thread nD τ).loc main_arg4)) := by
  refine (W2_arr m ρ c 5).trans ?_
  refine (RegionValue.array0 (V1 m ρ) Tile.pay0_eq c).trans ?_
  show Cert.Sage.denseRelu (W1 m ρ c (Proc.devRef .tc main_v24)) (W1 m ρ c (Proc.devRef .tc main_arg0))
    (W1 m ρ c (Proc.devRef .tc main_arg2)) (W1 m ρ c (Proc.devRef .tc main_arg3)) (W1 m ρ c (Proc.devRef .tc main_arg4)) = _
  rw [W1_v24, W1_arg0, W1_arg2, W1_arg3, W1_arg4]
  rfl

/-- After the second region the result array holds the result. -/
theorem result_eq (c : Dev nD) : W4 m ρ c (Proc.devRef .tc main_v38)
    = resultK (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (W4_arr m ρ c 5).trans ?_
  refine (RegionValue.array1 (V3 m ρ) Tile.pay1_eq c).trans ?_
  show Cert.Sage.dense (W3 m ρ c (Proc.devRef .tc main_v37)) (W3 m ρ c (Proc.devRef .tc main_v25))
    (W3 m ρ c (Proc.devRef .tc main_arg5)) (W3 m ρ c (Proc.devRef .tc main_arg6)) (W3 m ρ c (Proc.devRef .tc main_arg7)) = _
  rw [W3_v37, W3_v25, W3_arg5, W3_arg6, W3_arg7, W2_v1, W2_v3, W2_v12, W2_arg5, W2_arg6, W2_arg7,
    W1_v1, W1_v3, W1_v12, W1_arg5, W1_arg6, W1_arg7, hidden_eq]
  rfl

/-- The kernel side's run, read: every weakly fair execution terminates with the result array at `resultK` of the
    arguments and the arguments as launched. -/
theorem run : θ_run defs (onTc (τ := τ) (main (F := Ideal))) ⟨m, fun _ => 0, ρ⟩ (fun r => ∀ c : Dev nD,
      r.2.mem ((c.tc : Thread nD τ).loc main_v38)
        = resultK (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.Launched.run_result m ρ)

end Cert.KernelIdeal.Result

end
-- ==== Proof.RefValue.lean ====
/-
  The reference's result, restated over the specification of one graph-convolution layer.

  The reference computes, per layer, the sum over incoming edges of the source rows (a gather of rows followed by a
  scatter-add at the destination rows), divides each row by the number of incoming edges (at least one), and feeds the
  resulting mean and the layer's input table to the dense step: mean times the transposed left weights, plus the bias
  in every row, plus the table times the transposed right weights. The first layer's result passes through a maximum
  with zero and is the second layer's input table. The neighbour sum and the edge count are kept as they are printed
  (the gather and the scatters are never opened): only the quotient, the two products, the bias and the maximum are
  read index by index, which is all the specification speaks of.
-/
import proofs.«163515_j67456756351010_1_alg».proof.Proof.Gen.ReferenceIdeal.Run
import proofs.«163515_j67456756351010_1_alg».proof.Proof.Spec
import proofs.«163515_j67456756351010_1_alg».proof.Proof.LibPlainProduct
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal

noncomputable section

namespace Cert.ReferenceIdeal.RefValue

open Cert.ReferenceIdeal Cert.ReferenceIdeal.Gen Cert.ReferenceIdeal.Value Idealize.ShloMosaic Idealize.ShloMosaic.ValueIdx

/-- The edges' destination rows as a column: row 1 of the edge array, one word per edge. -/
def dstCol (e : IVec S2x640000 32) : IVec S640000x1 32 :=
  broadcastInDim S640000x1 ![0] bcast_S640000_S640000x1_0
    (shapeCast _ (extractStridedSlice S1x640000 ![1, 0] e slices_S2x640000_S1x640000_1_0) shapeCasts_S1x640000_S640000)

/-- The edges' source rows as a column: row 0 of the edge array, a negative word counted back from the table's end. -/
def srcCol (e : IVec S2x640000 32) : IVec S640000x1 32 :=
  broadcastInDim S640000x1 ![0] bcast_S640000_S640000x1_0
    (select
      (cmpi .slt (shapeCast _ (extractStridedSlice S1x640000 ![0, 0] e slices_S2x640000_S1x640000_0_0) shapeCasts_S1x640000_S640000)
        (broadcastInDim S640000 ![] bcast_S_S640000 (constantI S_ 32 0#32)))
      (addi (shapeCast _ (extractStridedSlice S1x640000 ![0, 0] e slices_S2x640000_S1x640000_0_0) shapeCasts_S1x640000_S640000)
        (broadcastInDim S640000 ![] bcast_S_S640000 (constantI S_ 32 50000#32)))
      (shapeCast _ (extractStridedSlice S1x640000 ![0, 0] e slices_S2x640000_S1x640000_0_0) shapeCasts_S1x640000_S640000))

/-- The neighbour sum: every edge adds its source row of the table to its destination row of a zero table. -/
def agg (t : FVec Ideal S50000x128 .f32) (e : IVec S2x640000 32) : FVec Ideal S50000x128 .f32 :=
  Host.scatterAdd (F := Ideal) scatter_S50000x128_S640000x1_S640000x128_1_0_0_1
    (broadcastInDim S50000x128 ![] bcast_S_S50000x128 (constant (F := Ideal) S_ .f32 0x00000000#32))
    (dstCol e)
    (Host.gather gather_S50000x128_S640000x1_S640000x128_1_0_n_n_0_1_1128 t (srcCol e))

/-- The number of incoming edges of every row: every edge adds one at its destination row of a zero vector. -/
def cnt (e : IVec S2x640000 32) : FVec Ideal S50000 .f32 :=
  Host.scatterAdd (F := Ideal) scatter_S50000_S640000x1_S640000_n_0_0_1
    (broadcastInDim S50000 ![] bcast_S_S50000 (constant (F := Ideal) S_ .f32 0x00000000#32))
    (dstCol e)
    (broadcastInDim S640000 ![] bcast_S_S640000 (constant (F := Ideal) S_ .f32 0x3F800000#32))

/-- The neighbour mean: the neighbour sum of a row over its number of incoming edges, taken as at least one. -/
def meanOf (t : FVec Ideal S50000x128 .f32) (e : IVec S2x640000 32) : FVec Ideal S50000x128 .f32 :=
  fun i => Ideal.div (agg t e i) (max (cnt e (ix1 (i 0))) 1)

/-- One layer as the reference writes it, over the neighbour sum and the edge count: the quotient by the count broadcast
    along the rows, the two products against the transposed weights, and the bias broadcast down the rows. -/
def layerTerm (t : FVec Ideal S50000x128 .f32) (e : IVec S2x640000 32) (Wl : FVec Ideal S128x128 .f32)
    (b : FVec Ideal S128 .f32) (Wr : FVec Ideal S128x128 .f32) : FVec Ideal S50000x128 .f32 :=
  addf
    (addf
      (Host.dotGeneral (F := Ideal) dot_S50000x128_S128x128_S50000x128_1_0_0_1_n_n none
        (Host.divf (F := Ideal) (agg t e)
          (broadcastInDim S50000x128 ![0, 1] bcast_S50000x1_S50000x128_0_1
            (broadcastInDim S50000x1 ![0] bcast_S50000_S50000x1_0
              (maximumf (cnt e)
                (broadcastInDim S50000 ![] bcast_S_S50000 (constant (F := Ideal) S_ .f32 0x3F800000#32))))))
        (transpose S128x128 [1, 0] Wl transposes_S128x128_S128x128_1_0))
      (broadcastInDim S50000x128 ![0, 1] bcast_S1x128_S50000x128_0_1 (broadcastInDim S1x128 ![1] bcast_S128_S1x128_1 b)))
    (Host.dotGeneral (F := Ideal) dot_S50000x128_S128x128_S50000x128_1_0_0_1_n_n none t
      (transpose S128x128 [1, 0] Wr transposes_S128x128_S128x128_1_0))

/-- The reference's result is the second layer's term over the first layer's, the first passed through the maximum with
    the zero table: the same operations on the same operands, the neighbour sums and counts named. -/
theorem res_layers (m : (ℓ : Loc nD τ sig) → Buf (Elt Ideal) ℓ) (c : Dev nD) :
    res_main_v58 (F := Ideal) m c
      = layerTerm
          (maximumf
            (layerTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)))
            (broadcastInDim S50000x128 ![] bcast_S_S50000x128 (constant (F := Ideal) S_ .f32 0x00000000#32)))
          (m ((c.tc : Thread nD τ).loc main_arg1))
          (m ((c.tc : Thread nD τ).loc main_arg5)) (m ((c.tc : Thread nD τ).loc main_arg6))
          (m ((c.tc : Thread nD τ).loc main_arg7)) := by
  unfold res_main_v58 layerTerm agg cnt dstCol srcCol
  rfl

/-- The quotient of the neighbour sum by the broadcast count is the neighbour mean: the count's column broadcast along
    a row reads the count of that row, and the word 0x3F800000 is the extended real one. -/
theorem mean_eq (t : FVec Ideal S50000x128 .f32) (e : IVec S2x640000 32) :
    Host.divf (F := Ideal) (agg t e)
        (broadcastInDim S50000x128 ![0, 1] bcast_S50000x1_S50000x128_0_1
          (broadcastInDim S50000x1 ![0] bcast_S50000_S50000x1_0
            (maximumf (cnt e)
              (broadcastInDim S50000 ![] bcast_S_S50000 (constant (F := Ideal) S_ .f32 0x3F800000#32)))))
      = meanOf t e := by
  funext i
  obtain ⟨p, q, rfl⟩ : ∃ (p : Fin 50000) (q : Fin 128), i = ix2 p q := ⟨i 0, i 1, eq_ix2 i⟩
  rw [hostDivf_apply]
  -- entry (p, q) of the column broadcast along the rows is entry (p, 0) of the column,
  rw [broadcastInDim_apply ![0, 1] bcast_S50000x1_S50000x128_0_1 _ (ix2 p q) (ix2 p (0 : Fin 1))
    (fun a => match a with | ⟨0, _⟩ => rfl | ⟨1, _⟩ => rfl)]
  -- which is entry p of the vector the column was made from
  rw [broadcastInDim_apply ![0] bcast_S50000_S50000x1_0 _ (ix2 p (0 : Fin 1)) (ix1 p)
    (fun a => match a with | ⟨0, _⟩ => rfl)]
  rw [maximumf_apply, broadcastInDim_scalar_apply, constant_apply, Ideal.ofBits_one_f32]
  rfl

/-- The reference's product record is the plain one: rows by columns, one contracted axis. -/
theorem dot_eq : dot_S50000x128_S128x128_S50000x128_1_0_0_1_n_n = DotDims.plain 50000 128 128 := rfl

/-- The dense step as the reference writes it is the specification's: each product against a transposed weight matrix
    is the sum over k of a row entry times entry (j, k) of the weights, and the bias broadcast down the rows reads the
    bias of the column. -/
theorem layer_eq (mean t : FVec Ideal S50000x128 .f32) (Wl Wr : FVec Ideal S128x128 .f32) (b : FVec Ideal S128 .f32) :
    addf
        (addf
          (Host.dotGeneral (F := Ideal) dot_S50000x128_S128x128_S50000x128_1_0_0_1_n_n none mean
            (transpose S128x128 [1, 0] Wl transposes_S128x128_S128x128_1_0))
          (broadcastInDim S50000x128 ![0, 1] bcast_S1x128_S50000x128_0_1 (broadcastInDim S1x128 ![1] bcast_S128_S1x128_1 b)))
        (Host.dotGeneral (F := Ideal) dot_S50000x128_S128x128_S50000x128_1_0_0_1_n_n none t
          (transpose S128x128 [1, 0] Wr transposes_S128x128_S128x128_1_0))
      = Cert.Sage.dense mean t Wl b Wr := by
  funext i
  obtain ⟨p, q, rfl⟩ : ∃ (p : Fin 50000) (q : Fin 128), i = ix2 p q := ⟨i 0, i 1, eq_ix2 i⟩
  rw [Cert.Sage.dense_apply, addf_apply, addf_apply, dot_eq, Cert.PlainProduct.dotGeneral_apply,
    Cert.PlainProduct.dotGeneral_apply]
  -- the bias: entry (p, q) of the one-row matrix broadcast down the rows is its entry (0, q), the bias at q
  rw [broadcastInDim_apply ![0, 1] bcast_S1x128_S50000x128_0_1 _ (ix2 p q) (ix2 (0 : Fin 1) q)
    (fun a => match a with | ⟨0, _⟩ => rfl | ⟨1, _⟩ => rfl)]
  rw [broadcastInDim_apply ![1] bcast_S128_S1x128_1 b (ix2 (0 : Fin 1) q) (ix1 q)
    (fun a => match a with | ⟨0, _⟩ => rfl)]
  -- the transposed weights at (k, q) are the weights at (q, k), in each term of the two sums
  have hl : ∀ k : Fin 128, transpose S128x128 [1, 0] Wl transposes_S128x128_S128x128_1_0 (ix2 k q) = Wl (ix2 q k) :=
    fun k => transpose_ix2_apply Wl transposes_S128x128_S128x128_1_0 k q
  have hr : ∀ k : Fin 128, transpose S128x128 [1, 0] Wr transposes_S128x128_S128x128_1_0 (ix2 k q) = Wr (ix2 q k) :=
    fun k => transpose_ix2_apply Wr transposes_S128x128_S128x128_1_0 k q
  congr 1
  · congr 1
    exact Finset.sum_congr rfl fun k _ => by rw [hl k]
  · exact Finset.sum_congr rfl fun k _ => by rw [hr k]

/-- The maximum with the zero table is the maximum with zero at every entry. -/
theorem relu_eq (h : FVec Ideal S50000x128 .f32) :
    maximumf h (broadcastInDim S50000x128 ![] bcast_S_S50000x128 (constant (F := Ideal) S_ .f32 0x00000000#32))
      = fun i => max (h i) 0 := by
  funext i
  rw [maximumf_apply, broadcastInDim_scalar_apply, constant_apply, Ideal.ofBits_zero_f32]

/-- One layer as the reference writes it is the dense step on the neighbour mean and the table. -/
theorem layerTerm_eq (t : FVec Ideal S50000x128 .f32) (e : IVec S2x640000 32) (Wl : FVec Ideal S128x128 .f32)
    (b : FVec Ideal S128 .f32) (Wr : FVec Ideal S128x128 .f32) :
    layerTerm t e Wl b Wr = Cert.Sage.dense (meanOf t e) t Wl b Wr := by
  unfold layerTerm
  rw [mean_eq]
  exact layer_eq (meanOf t e) t Wl Wr b

/-- The reference's result: the dense step of the second layer on the first layer's result (the dense step followed by
    the maximum with zero) and on that result's neighbour mean. -/
theorem res_eq (m : (ℓ : Loc nD τ sig) → Buf (Elt Ideal) ℓ) (c : Dev nD) :
    res_main_v58 (F := Ideal) m c
      = Cert.Sage.dense
          (meanOf
            (Cert.Sage.denseRelu
              (meanOf (m ((c.tc : Thread nD τ).loc main_arg0)) (m ((c.tc : Thread nD τ).loc main_arg1)))
              (m ((c.tc : Thread nD τ).loc main_arg0)) (m ((c.tc : Thread nD τ).loc main_arg2))
              (m ((c.tc : Thread nD τ).loc main_arg3)) (m ((c.tc : Thread nD τ).loc main_arg4)))
            (m ((c.tc : Thread nD τ).loc main_arg1)))
          (Cert.Sage.denseRelu
            (meanOf (m ((c.tc : Thread nD τ).loc main_arg0)) (m ((c.tc : Thread nD τ).loc main_arg1)))
            (m ((c.tc : Thread nD τ).loc main_arg0)) (m ((c.tc : Thread nD τ).loc main_arg2))
            (m ((c.tc : Thread nD τ).loc main_arg3)) (m ((c.tc : Thread nD τ).loc main_arg4)))
          (m ((c.tc : Thread nD τ).loc main_arg5)) (m ((c.tc : Thread nD τ).loc main_arg6))
          (m ((c.tc : Thread nD τ).loc main_arg7)) := by
  rw [res_layers, layerTerm_eq, layerTerm_eq, relu_eq]
  rfl

end Cert.ReferenceIdeal.RefValue

end
-- ==== Proof.lean ====
/-
  A two-layer graph convolution: per layer, every node's neighbour mean (its neighbours' rows summed along the edges,
  over the number of incoming edges or one, whichever is larger) and the node's own row go through a dense step,
  mean · Wlᵀ + b + x · Wrᵀ; the first layer is followed by a maximum with zero and feeds the second.

  The kernel and the reference differ in two ways only. The kernel computes each dense step block by block, ten
  blocks of 5000 rows each, with operands narrowed to a shorter format on the way into the products; over the extended
  reals the narrowing is the identity, a row of the dense step reads only that row of its tables, and a product into
  a zero accumulator is the plain sum, so each region's array is the reference's dense step of the arrays it finds.
  And the kernel scales the neighbour sum by the reciprocal 1 / max(count, 1) where the reference divides by
  max(count, 1): the divisor is at least one, so it is never zero, and off zero the quotient a / y IS a · y⁻¹ = a · (1 / y)
  at every extended real a and y, the infinities included. Nothing is needed of the inputs' finiteness, and the gather
  and the scatter-adds are the same operations on both sides and are never opened.
-/
import proofs.«163515_j67456756351010_1_alg».proof.Defs
import proofs.«163515_j67456756351010_1_alg».proof.Proof.Gen.Kernel
import proofs.«163515_j67456756351010_1_alg».proof.Proof.Gen.Kernel.Frame
import proofs.«163515_j67456756351010_1_alg».proof.Proof.Gen.KernelIdeal
import proofs.«163515_j67456756351010_1_alg».proof.Proof.Gen.KernelIdeal.Frame
import proofs.«163515_j67456756351010_1_alg».proof.Proof.Gen.ReferenceIdeal
import proofs.«163515_j67456756351010_1_alg».proof.Proof.Gen.ReferenceIdeal.Run
import proofs.«163515_j67456756351010_1_alg».proof.Proof.Gen.Pre_finite_inputs
import proofs.«163515_j67456756351010_1_alg».proof.Proof.KernelValue
import proofs.«163515_j67456756351010_1_alg».proof.Proof.RefValue
import Idealize.ShloMosaic.Lib.IdealHost
import Idealize.ShloMosaic.Lib.ValueIdx
import Idealize.ShloMosaic.Lib.Pipeline.Value

noncomputable section

open Idealize.ShloMosaic Idealize.ShloMosaic.TcCoe Idealize.ShloMosaic.ValueIdx Idealize.SL.Sem

/-! ## The two sides' neighbour means are one function -/

namespace Cert.Proof.Bridge

open Cert.KernelIdeal.HostValue Cert.KernelIdeal.Result

/-- Both programs form the neighbour sum by the same gather and scatter-add of the same rows of the edge array. -/
theorem agg_eq (t : FVec Ideal ⟨2, ![50000, 128]⟩ .f32) (e : IVec ⟨2, ![2, 640000]⟩ 32) :
    aggOf t (srcRow e) (dstRow e) = Cert.ReferenceIdeal.RefValue.agg t e := rfl

/-- Both programs count a node's incoming edges by the same scatter-add of ones. -/
theorem cnt_eq (e : IVec ⟨2, ![2, 640000]⟩ 32) : cntOf (dstRow e) = Cert.ReferenceIdeal.RefValue.cnt e := rfl

/-- The neighbour sum times the reciprocal of max(count, 1) is the neighbour sum over max(count, 1). -/
theorem mean_eq (t : FVec Ideal ⟨2, ![50000, 128]⟩ .f32) (e : IVec ⟨2, ![2, 640000]⟩ 32) :
    meanK t e = Cert.ReferenceIdeal.RefValue.meanOf t e := by
  funext i
  obtain ⟨p, q, rfl⟩ : ∃ (p : Fin 50000) (q : Fin 128), i = ix2 p q := ⟨i 0, i 1, eq_ix2 i⟩
  unfold meanK meanOf Cert.ReferenceIdeal.RefValue.meanOf
  rw [mulf_apply]
  -- entry (p, q) of the reciprocal column spread over the features is the column's entry (p, 0),
  rw [broadcastInDim_apply ![0, 1] Cert.KernelIdeal.Facts₀.bcast_S50000x1_S50000x128_0_1 _ (ix2 p q) (ix2 p (0 : Fin 1))
    (fun a => match a with | ⟨0, _⟩ => rfl | ⟨1, _⟩ => rfl)]
  unfold invCol
  -- which is entry p of the reciprocal vector: one over the larger of the count and one
  rw [broadcastInDim_apply ![0] Cert.KernelIdeal.Facts₀.bcast_S50000_S50000x1_0 _ (ix2 p (0 : Fin 1)) (ix1 p)
    (fun a => match a with | ⟨0, _⟩ => rfl)]
  rw [hostDivf_apply, maximumf_apply, broadcastInDim_scalar_apply, constant_apply, Ideal.ofBits_one_f32, agg_eq, cnt_eq]
  exact Cert.Sage.mul_recip_eq_div _ _

/-- The kernel side's result is the reference's: the same dense steps on the same tables and the same means. -/
theorem result_eq (x : FVec Ideal ⟨2, ![50000, 128]⟩ .f32) (e : IVec ⟨2, ![2, 640000]⟩ 32)
    (W1l : FVec Ideal ⟨2, ![128, 128]⟩ .f32) (b1l : FVec Ideal ⟨1, ![128]⟩ .f32) (W1r W2l : FVec Ideal ⟨2, ![128, 128]⟩ .f32)
    (b2l : FVec Ideal ⟨1, ![128]⟩ .f32) (W2r : FVec Ideal ⟨2, ![128, 128]⟩ .f32) :
    resultK x e W1l b1l W1r W2l b2l W2r
      = Cert.Sage.dense
          (Cert.ReferenceIdeal.RefValue.meanOf
            (Cert.Sage.denseRelu (Cert.ReferenceIdeal.RefValue.meanOf x e) x W1l b1l W1r) e)
          (Cert.Sage.denseRelu (Cert.ReferenceIdeal.RefValue.meanOf x e) x W1l b1l W1r) W2l b2l W2r := by
  unfold resultK hiddenK
  rw [mean_eq, mean_eq]

end Cert.Proof.Bridge

/-! ## The claims -/

namespace Cert.Proof

/-- The word-level kernel runs and keeps its arguments: the generated frame. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result array: the kernel side's run
    ends at its result function of the arguments, the reference's at its own, and the two are one function. -/
theorem algebraic : Cert.algebraic_KernelIdeal_ReferenceIdeal := by
  intro m ρ m' ρ' _ hagree
  refine ⟨fun c => Cert.KernelIdeal.Result.resultK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.RefValue.res_eq, h0, h1, h2, h3, h4, h5, h6, h7]
  exact (Bridge.result_eq _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
